-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x55 : Shape := ⟨2, ![50000, 55]⟩
abbrev S3000000x55 : Shape := ⟨2, ![3000000, 55]⟩
abbrev S50000 : Shape := ⟨1, ![50000]⟩
abbrev S500 : Shape := ⟨1, ![500]⟩
abbrev S3000000x3 : Shape := ⟨2, ![3000000, 3]⟩
abbrev S3000000 : Shape := ⟨1, ![3000000]⟩
abbrev S55x64 : Shape := ⟨2, ![55, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x55 : S_.BroadcastsInDim S50000x55 (![] : Fin 0 → Fin S50000x55.rank)
  reducesTo_S50000x55_S_d0_1 : S50000x55.ReducesTo [0, 1] S_
  h_S_ : 0 < S_.numel
  bcast_S_S3000000x55 : S_.BroadcastsInDim S3000000x55 (![] : Fin 0 → Fin S3000000x55.rank)
  reducesTo_S3000000x55_S_d0_1 : S3000000x55.ReducesTo [0, 1] S_
  bcast_S_S55x64 : S_.BroadcastsInDim S55x64 (![] : Fin 0 → Fin S55x64.rank)
  reducesTo_S55x64_S_d0_1 : S55x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg12 : FVec F S1 .f32) (main_v33 : IVec S_ 1) : IVec S_ 1 :=
  let main_v34 : FVec F S1 .f32 := Host.absf main_arg12
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg9 : FVec F S64x64 .f32) (main_arg10 : FVec F S64 .f32) (main_arg11 : FVec F S64x1 .f32) (main_arg12 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg9
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg10
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg11
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg12 main_v33

def fn {F : FTy → Type} [FloatOps F] (main_arg0 : FVec F S50000x55 .f32) (main_arg1 : FVec F S3000000x55 .f32) (main_arg2 : IVec S50000 32) (main_arg3 : IVec S500 32) (main_arg4 : IVec S50000 32) (main_arg5 : IVec S3000000x3 32) (main_arg6 : IVec S3000000 32) (main_arg7 : FVec F S55x64 .f32) (main_arg8 : FVec F S64 .f32) (main_arg9 : FVec F S64x64 .f32) (main_arg10 : FVec F S64 .f32) (main_arg11 : FVec F S64x1 .f32) (main_arg12 : FVec F S1 .f32) : IVec S_ 1 :=
  let main_v0 : FVec F S50000x55 .f32 := Host.absf main_arg0
  let main_cst : FVec F S_ .f32 := constant S_ .f32 0x7F800000#32
  let main_v1 : FVec F S50000x55 .f32 := broadcastInDim S50000x55 ![] bcast_S_S50000x55 main_cst
  let main_v2 : IVec S50000x55 1 := cmpf .olt main_v0 main_v1
  let main_c : IVec S_ 1 := constantI S_ 1 1#1
  let main_v3 : IVec S_ 1 := (fun x v => Host.reduce IntOp.andi x v reducesTo_S50000x55_S_d0_1 h_S_) main_v2 main_c
  let main_v4 : FVec F S3000000x55 .f32 := Host.absf main_arg1
  let main_cst_0 : FVec F S_ .f32 := constant S_ .f32 0x7F800000#32
  let main_v5 : FVec F S3000000x55 .f32 := broadcastInDim S3000000x55 ![] bcast_S_S3000000x55 main_cst_0
  let main_v6 : IVec S3000000x55 1 := cmpf .olt main_v4 main_v5
  let main_c_1 : IVec S_ 1 := constantI S_ 1 1#1
  let main_v7 : IVec S_ 1 := (fun x v => Host.reduce IntOp.andi x v reducesTo_S3000000x55_S_d0_1 h_S_) main_v6 main_c_1
  let main_v8 : IVec S_ 1 := andi main_v3 main_v7
  let main_v9 : FVec F S55x64 .f32 := Host.absf main_arg7
  let main_cst_2 : FVec F S_ .f32 := constant S_ .f32 0x7F800000#32
  let main_v10 : FVec F S55x64 .f32 := broadcastInDim S55x64 ![] bcast_S_S55x64 main_cst_2
  let main_v11 : IVec S55x64 1 := cmpf .olt main_v9 main_v10
  let main_c_3 : IVec S_ 1 := constantI S_ 1 1#1
  let main_v12 : IVec S_ 1 := (fun x v => Host.reduce IntOp.andi x v reducesTo_S55x64_S_d0_1 h_S_) main_v11 main_c_3
  let main_v13 : IVec S_ 1 := andi main_v8 main_v12
  let main_v14 : FVec F S64 .f32 := Host.absf main_arg8
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg9 main_arg10 main_arg11 main_arg12 main_v13 main_v16
-- ==== Kernel.lean ====
abbrev S50000x55 : Shape := ⟨2, ![50000, 55]⟩
abbrev S3000000x55 : Shape := ⟨2, ![3000000, 55]⟩
abbrev S50000 : Shape := ⟨1, ![50000]⟩
abbrev S500 : Shape := ⟨1, ![500]⟩
abbrev S3000000x3 : Shape := ⟨2, ![3000000, 3]⟩
abbrev S3000000 : Shape := ⟨1, ![3000000]⟩
abbrev S55x64 : Shape := ⟨2, ![55, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S50000x64 : Shape := ⟨2, ![50000, 64]⟩
abbrev S1x64 : Shape := ⟨2, ![1, 64]⟩
abbrev S_ : Shape := ⟨0, ![]⟩
abbrev S50000x1 : Shape := ⟨2, ![50000, 1]⟩
abbrev S1x1 : Shape := ⟨2, ![1, 1]⟩
abbrev S3000000x1 : Shape := ⟨2, ![3000000, 1]⟩
abbrev S8000x55 : Shape := ⟨2, ![8000, 55]⟩
abbrev S8000x1 : Shape := ⟨2, ![8000, 1]⟩
abbrev S8000 : Shape := ⟨1, ![8000]⟩
abbrev S150000 : Shape := ⟨1, ![150000]⟩

abbrev nBuf : Space → Nat
  | .hbm => 72
  | .vmem => 6
  | .smem => 0
  | _ => 0

abbrev bufTy : (tb : Table) → Fin (tcTables nBuf tb) → BufTy
  | .hbm, ⟨0, _⟩ => ⟨S50000x55, .f32⟩
  | .hbm, ⟨1, _⟩ => ⟨S3000000x55, .f32⟩
  | .hbm, ⟨2, _⟩ => ⟨S50000, .i32⟩
  | .hbm, ⟨3, _⟩ => ⟨S500, .i32⟩
  | .hbm, ⟨4, _⟩ => ⟨S50000, .i32⟩
  | .hbm, ⟨5, _⟩ => ⟨S3000000x3, .i32⟩
  | .hbm, ⟨6, _⟩ => ⟨S3000000, .i32⟩
  | .hbm, ⟨7, _⟩ => ⟨S55x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S50000x64, .f32⟩
  | .hbm, ⟨14, _⟩ => ⟨S1x64, .f32⟩
  | .hbm, ⟨15, _⟩ => ⟨S50000x64, .f32⟩
  | .hbm, ⟨16, _⟩ => ⟨S50000x64, .f32⟩
  | .hbm, ⟨17, _⟩ => ⟨S50000x64, .f32⟩
  | .hbm, ⟨18, _⟩ => ⟨S_, .f32⟩
  | .hbm, ⟨19, _⟩ => ⟨S50000x64, .f32⟩
  | .hbm, ⟨20, _⟩ => ⟨S50000x64, .f32⟩
  | .hbm, ⟨21, _⟩ => ⟨S50000x64, .f32⟩
  | .hbm, ⟨22, _⟩ => ⟨S1x64, .f32⟩
  | .hbm, ⟨23, _⟩ => ⟨S50000x64, .f32⟩
  | .hbm, ⟨24, _⟩ => ⟨S50000x64, .f32⟩
  | .hbm, ⟨25, _⟩ => ⟨S50000x64, .f32⟩
  | .hbm, ⟨26, _⟩ => ⟨S_, .f32⟩
  | .hbm, ⟨27, _⟩ => ⟨S50000x64, .f32⟩
  | .hbm, ⟨28, _⟩ => ⟨S50000x64, .f32⟩
  | .hbm, ⟨29, _⟩ => ⟨S50000x1, .f32⟩
  | .hbm, ⟨30, _⟩ => ⟨S1x1, .f32⟩
  | .hbm, ⟨31, _⟩ => ⟨S50000x1, .f32⟩
  | .hbm, ⟨32, _⟩ => ⟨S50000x1, .f32⟩
  | .hbm, ⟨33, _⟩ => ⟨S_, .f32⟩
  | .hbm, ⟨34, _⟩ => ⟨S50000x1, .f32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S50000x55, .f32⟩
  | .hbm, ⟨44, _⟩ => ⟨S50000, .f32⟩
  | .hbm, ⟨45, _⟩ => ⟨S_, .f32⟩
  | .hbm, ⟨46, _⟩ => ⟨S500, .f32⟩
  | .hbm, ⟨47, _⟩ => ⟨S50000x1, .i32⟩
  | .hbm, ⟨48, _⟩ => ⟨S500, .f32⟩
  | .hbm, ⟨49, _⟩ => ⟨S3000000x1, .i32⟩
  | .hbm, ⟨50, _⟩ => ⟨S3000000, .i32⟩
  | .hbm, ⟨51, _⟩ => ⟨S_, .i32⟩
  | .hbm, ⟨52, _⟩ => ⟨S3000000, .i32⟩
  | .hbm, ⟨53, _⟩ => ⟨S3000000, .i1⟩
  | .hbm, ⟨54, _⟩ => ⟨S_, .i32⟩
  | .hbm, ⟨55, _⟩ => ⟨S3000000, .i32⟩
  | .hbm, ⟨56, _⟩ => ⟨S3000000, .i32⟩
  | .hbm, ⟨57, _⟩ => ⟨S3000000, .i32⟩
  | .hbm, ⟨58, _⟩ => ⟨S3000000x1, .i32⟩
  | .hbm, ⟨59, _⟩ => ⟨S3000000x55, .f32⟩
  | .hbm, ⟨60, _⟩ => ⟨S3000000x1, .f32⟩
  | .hbm, ⟨61, _⟩ => ⟨S3000000, .f32⟩
  | .hbm, ⟨62, _⟩ => ⟨S_, .i32⟩
  | .hbm, ⟨63, _⟩ => ⟨S3000000, .i32⟩
  | .hbm, ⟨64, _⟩ => ⟨S3000000, .i32⟩
  | .hbm, ⟨65, _⟩ => ⟨S3000000x1, .i32⟩
  | .hbm, ⟨66, _⟩ => ⟨S3000000, .i32⟩
  | .hbm, ⟨67, _⟩ => ⟨S3000000, .i32⟩
  | .hbm, ⟨68, _⟩ => ⟨S_, .f32⟩
  | .hbm, ⟨69, _⟩ => ⟨S150000, .f32⟩
  | .hbm, ⟨70, _⟩ => ⟨S3000000x1, .i32⟩
  | .hbm, ⟨71, _⟩ => ⟨S150000, .f32⟩
  | .local _ .vmem, ⟨0, _⟩ => ⟨S8000x55, .f32⟩
  | .local _ .vmem, ⟨1, _⟩ => ⟨S8000x55, .f32⟩
  | .local _ .vmem, ⟨2, _⟩ => ⟨S8000x55, .f32⟩
  | .local _ .vmem, ⟨3, _⟩ => ⟨S8000x55, .f32⟩
  | .local _ .vmem, ⟨4, _⟩ => ⟨S8000x1, .f32⟩
  | .local _ .vmem, ⟨5, _⟩ => ⟨S8000x1, .f32⟩
  | _, _ => ⟨S50000x55, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c : Ref sig .tc := ⟨.hbm, 51, rfl⟩
abbrev main_v34 : Ref sig .tc := ⟨.hbm, 52, rfl⟩
abbrev main_v35 : Ref sig .tc := ⟨.hbm, 53, rfl⟩
abbrev main_c_3 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_4 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![375], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x55 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x55 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  bcast_S_S500 : S_.BroadcastsInDim S500 (![] : Fin 0 → Fin S500.rank)
  bcast_S50000_S50000x1_0 : S50000.BroadcastsInDim S50000x1 (![0] : Fin 1 → Fin S50000x1.rank)
  slices_S3000000x3_S3000000x1_0_0 : S3000000x3.Slices ![0, 0] S3000000x1
  shapeCasts_S3000000x1_S3000000 : S3000000x1.ShapeCasts S3000000
  bcast_S_S3000000 : S_.BroadcastsInDim S3000000 (![] : Fin 0 → Fin S3000000.rank)
  bcast_S3000000_S3000000x1_0 : S3000000.BroadcastsInDim S3000000x1 (![0] : Fin 1 → Fin S3000000x1.rank)
  inb_S8000x55_S8000x55_0_0 : ∀ a, (![0, 0] : Fin 2 → Nat) a + S8000x55.size a ≤ S8000x55.size a
  h_S8000x55 : 0 < S8000x55.numel
  shapeCasts_S8000x55_S8000x55 : S8000x55.ShapeCasts S8000x55
  reduces_S8000x55_S8000 : S8000x55.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  slices_S3000000x3_S3000000x1_0_2 : S3000000x3.Slices ![0, 2] S3000000x1
  bcast_S_S150000 : S_.BroadcastsInDim S150000 (![] : Fin 0 → Fin S150000.rank)
  dot_S50000x55_S55x64_S50000x64_1_0_0_1_n_n_wf : DotDims.WF S50000x55 S55x64 S50000x64 [1] [0] [0] [1] [] []
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []
  dot_S50000x1_S64x1_S50000x64_1_1_0_0_n_n_wf : DotDims.WF S50000x1 S64x1 S50000x64 [1] [1] [0] [0] [] []
  dot_S50000x64_S64x64_S50000x64_1_1_0_0_n_n_wf : DotDims.WF S50000x64 S64x64 S50000x64 [1] [1] [0] [0] [] []
  dot_S50000x64_S55x64_S50000x55_1_1_0_0_n_n_wf : DotDims.WF S50000x64 S55x64 S50000x55 [1] [1] [0] [0] [] []
  scatter_S500_S50000x1_S50000_n_0_0_1_wf : ScatterDims.WF S500 S50000x1 S50000 [] [0] [0] 1
  gather_S50000x55_S3000000x1_S3000000x55_1_0_n_n_0_1_155_wf : GatherDims.WF S50000x55 S3000000x1 S3000000x55 [1] [0] [] [0] [] 1 ![1, 55]
  scatter_S150000_S3000000x1_S3000000_n_0_0_1_wf : ScatterDims.WF S150000 S3000000x1 S3000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x55.size a ≤ S3000000x55.size a
  hwx0_0 : ∀ i : grid0.Coords, EltTy.bits .f32 = 32 ∨ (Rect.block (s := S3000000x55) S8000x55.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x55.size a ≤ S3000000x55.size a
  hwx0_1 : ∀ i : grid0.Coords, EltTy.bits .f32 = 32 ∨ (Rect.block (s := S3000000x55) S8000x55.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S3000000x1.size a
  hwx0_2 : ∀ i : grid0.Coords, EltTy.bits .f32 = 32 ∨ (Rect.block (s := S3000000x1) S8000x1.size (cc0_transform_2 i) (hinb0_2 i)).WholeWords (EltTy.packing .f32)

variable [Facts₀]

def dot_S50000x55_S55x64_S50000x64_1_0_0_1_n_n : DotDims S50000x55 S55x64 S50000x64 where
  lhsContracting := [1]
  rhsContracting := [0]
  lhsNonContracting := [0]
  rhsNonContracting := [1]
  lhsBatch := []
  rhsBatch := []
  wf := dot_S50000x55_S55x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def dot_S50000x1_S64x1_S50000x64_1_1_0_0_n_n : DotDims S50000x1 S64x1 S50000x64 where
  lhsContracting := [1]
  rhsContracting := [1]
  lhsNonContracting := [0]
  rhsNonContracting := [0]
  lhsBatch := []
  rhsBatch := []
  wf := dot_S50000x1_S64x1_S50000x64_1_1_0_0_n_n_wf
def dot_S50000x64_S64x64_S50000x64_1_1_0_0_n_n : DotDims S50000x64 S64x64 S50000x64 where
  lhsContracting := [1]
  rhsContracting := [1]
  lhsNonContracting := [0]
  rhsNonContracting := [0]
  lhsBatch := []
  rhsBatch := []
  wf := dot_S50000x64_S64x64_S50000x64_1_1_0_0_n_n_wf
def dot_S50000x64_S55x64_S50000x55_1_1_0_0_n_n : DotDims S50000x64 S55x64 S50000x55 where
  lhsContracting := [1]
  rhsContracting := [1]
  lhsNonContracting := [0]
  rhsNonContracting := [0]
  lhsBatch := []
  rhsBatch := []
  wf := dot_S50000x64_S55x64_S50000x55_1_1_0_0_n_n_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def gather_S50000x55_S3000000x1_S3000000x55_1_0_n_n_0_1_155 : GatherDims S50000x55 S3000000x1 S3000000x55 where
  offsetDims := [1]
  collapsedSliceDims := [0]
  operandBatchingDims := []
  startIndicesBatchingDims := []
  startIndexMap := [0]
  indexVectorDim := 1
  sliceSizes := ![1, 55]
  wf := gather_S50000x55_S3000000x1_S3000000x55_1_0_n_n_0_1_155_wf
def scatter_S150000_S3000000x1_S3000000_n_0_0_1 : ScatterDims S150000 S3000000x1 S3000000 where
  updateWindowDims := []
  insertedWindowDims := [0]
  scatterDimsToOperandDims := [0]
  indexVectorDim := 1
  wf := scatter_S150000_S3000000x1_S3000000_n_0_0_1_wf

abbrev win0_0 : Pipeline.Window sig grid0 :=
  Pipeline.Window.ofSpec (Memref.whole main_arg1) S8000x55.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S8000x55.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S8000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x55 : Shape := ⟨2, ![50000, 55]⟩
abbrev S3000000x55 : Shape := ⟨2, ![3000000, 55]⟩
abbrev S50000 : Shape := ⟨1, ![50000]⟩
abbrev S500 : Shape := ⟨1, ![500]⟩
abbrev S3000000x3 : Shape := ⟨2, ![3000000, 3]⟩
abbrev S3000000 : Shape := ⟨1, ![3000000]⟩
abbrev S55x64 : Shape := ⟨2, ![55, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S50000x64 : Shape := ⟨2, ![50000, 64]⟩
abbrev S1x64 : Shape := ⟨2, ![1, 64]⟩
abbrev S_ : Shape := ⟨0, ![]⟩
abbrev S50000x1 : Shape := ⟨2, ![50000, 1]⟩
abbrev S1x1 : Shape := ⟨2, ![1, 1]⟩
abbrev S3000000x1 : Shape := ⟨2, ![3000000, 1]⟩
abbrev S150000 : Shape := ⟨1, ![150000]⟩

abbrev nBuf : Space → Nat
  | .hbm => 73
  | .vmem => 0
  | .smem => 0
  | _ => 0

abbrev bufTy : (tb : Table) → Fin (tcTables nBuf tb) → BufTy
  | .hbm, ⟨0, _⟩ => ⟨S50000x55, .f32⟩
  | .hbm, ⟨1, _⟩ => ⟨S3000000x55, .f32⟩
  | .hbm, ⟨2, _⟩ => ⟨S50000, .i32⟩
  | .hbm, ⟨3, _⟩ => ⟨S500, .i32⟩
  | .hbm, ⟨4, _⟩ => ⟨S50000, .i32⟩
  | .hbm, ⟨5, _⟩ => ⟨S3000000x3, .i32⟩
  | .hbm, ⟨6, _⟩ => ⟨S3000000, .i32⟩
  | .hbm, ⟨7, _⟩ => ⟨S55x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S50000x64, .f32⟩
  | .hbm, ⟨14, _⟩ => ⟨S1x64, .f32⟩
  | .hbm, ⟨15, _⟩ => ⟨S50000x64, .f32⟩
  | .hbm, ⟨16, _⟩ => ⟨S50000x64, .f32⟩
  | .hbm, ⟨17, _⟩ => ⟨S50000x64, .f32⟩
  | .hbm, ⟨18, _⟩ => ⟨S_, .f32⟩
  | .hbm, ⟨19, _⟩ => ⟨S50000x64, .f32⟩
  | .hbm, ⟨20, _⟩ => ⟨S50000x64, .f32⟩
  | .hbm, ⟨21, _⟩ => ⟨S50000x64, .f32⟩
  | .hbm, ⟨22, _⟩ => ⟨S1x64, .f32⟩
  | .hbm, ⟨23, _⟩ => ⟨S50000x64, .f32⟩
  | .hbm, ⟨24, _⟩ => ⟨S50000x64, .f32⟩
  | .hbm, ⟨25, _⟩ => ⟨S50000x64, .f32⟩
  | .hbm, ⟨26, _⟩ => ⟨S_, .f32⟩
  | .hbm, ⟨27, _⟩ => ⟨S50000x64, .f32⟩
  | .hbm, ⟨28, _⟩ => ⟨S50000x64, .f32⟩
  | .hbm, ⟨29, _⟩ => ⟨S50000x1, .f32⟩
  | .hbm, ⟨30, _⟩ => ⟨S1x1, .f32⟩
  | .hbm, ⟨31, _⟩ => ⟨S50000x1, .f32⟩
  | .hbm, ⟨32, _⟩ => ⟨S50000x1, .f32⟩
  | .hbm, ⟨33, _⟩ => ⟨S_, .f32⟩
  | .hbm, ⟨34, _⟩ => ⟨S50000x1, .f32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S50000x55, .f32⟩
  | .hbm, ⟨44, _⟩ => ⟨S50000, .f32⟩
  | .hbm, ⟨45, _⟩ => ⟨S_, .f32⟩
  | .hbm, ⟨46, _⟩ => ⟨S500, .f32⟩
  | .hbm, ⟨47, _⟩ => ⟨S50000x1, .i32⟩
  | .hbm, ⟨48, _⟩ => ⟨S500, .f32⟩
  | .hbm, ⟨49, _⟩ => ⟨S3000000x1, .i32⟩
  | .hbm, ⟨50, _⟩ => ⟨S3000000, .i32⟩
  | .hbm, ⟨51, _⟩ => ⟨S_, .i32⟩
  | .hbm, ⟨52, _⟩ => ⟨S3000000, .i32⟩
  | .hbm, ⟨53, _⟩ => ⟨S3000000, .i1⟩
  | .hbm, ⟨54, _⟩ => ⟨S_, .i32⟩
  | .hbm, ⟨55, _⟩ => ⟨S3000000, .i32⟩
  | .hbm, ⟨56, _⟩ => ⟨S3000000, .i32⟩
  | .hbm, ⟨57, _⟩ => ⟨S3000000, .i32⟩
  | .hbm, ⟨58, _⟩ => ⟨S3000000x1, .i32⟩
  | .hbm, ⟨59, _⟩ => ⟨S3000000x55, .f32⟩
  | .hbm, ⟨60, _⟩ => ⟨S3000000x55, .f32⟩
  | .hbm, ⟨61, _⟩ => ⟨S_, .f32⟩
  | .hbm, ⟨62, _⟩ => ⟨S3000000, .f32⟩
  | .hbm, ⟨63, _⟩ => ⟨S_, .i32⟩
  | .hbm, ⟨64, _⟩ => ⟨S3000000, .i32⟩
  | .hbm, ⟨65, _⟩ => ⟨S3000000, .i32⟩
  | .hbm, ⟨66, _⟩ => ⟨S3000000x1, .i32⟩
  | .hbm, ⟨67, _⟩ => ⟨S3000000, .i32⟩
  | .hbm, ⟨68, _⟩ => ⟨S3000000, .i32⟩
  | .hbm, ⟨69, _⟩ => ⟨S_, .f32⟩
  | .hbm, ⟨70, _⟩ => ⟨S150000, .f32⟩
  | .hbm, ⟨71, _⟩ => ⟨S3000000x1, .i32⟩
  | .hbm, ⟨72, _⟩ => ⟨S150000, .f32⟩
  | _, _ => ⟨S50000x55, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c : Ref sig .tc := ⟨.hbm, 51, rfl⟩
abbrev main_v34 : Ref sig .tc := ⟨.hbm, 52, rfl⟩
abbrev main_v35 : Ref sig .tc := ⟨.hbm, 53, rfl⟩
abbrev main_c_3 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_c_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  bcast_S_S500 : S_.BroadcastsInDim S500 (![] : Fin 0 → Fin S500.rank)
  bcast_S50000_S50000x1_0 : S50000.BroadcastsInDim S50000x1 (![0] : Fin 1 → Fin S50000x1.rank)
  slices_S3000000x3_S3000000x1_0_0 : S3000000x3.Slices ![0, 0] S3000000x1
  shapeCasts_S3000000x1_S3000000 : S3000000x1.ShapeCasts S3000000
  bcast_S_S3000000 : S_.BroadcastsInDim S3000000 (![] : Fin 0 → Fin S3000000.rank)
  bcast_S3000000_S3000000x1_0 : S3000000.BroadcastsInDim S3000000x1 (![0] : Fin 1 → Fin S3000000x1.rank)
  reducesTo_S3000000x55_S3000000_d1 : S3000000x55.ReducesTo [1] S3000000
  h_S_ : 0 < S_.numel
  slices_S3000000x3_S3000000x1_0_2 : S3000000x3.Slices ![0, 2] S3000000x1
  bcast_S_S150000 : S_.BroadcastsInDim S150000 (![] : Fin 0 → Fin S150000.rank)
  dot_S50000x55_S55x64_S50000x64_1_0_0_1_n_n_wf : DotDims.WF S50000x55 S55x64 S50000x64 [1] [0] [0] [1] [] []
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []
  dot_S50000x1_S64x1_S50000x64_1_1_0_0_n_n_wf : DotDims.WF S50000x1 S64x1 S50000x64 [1] [1] [0] [0] [] []
  dot_S50000x64_S64x64_S50000x64_1_1_0_0_n_n_wf : DotDims.WF S50000x64 S64x64 S50000x64 [1] [1] [0] [0] [] []
  dot_S50000x64_S55x64_S50000x55_1_1_0_0_n_n_wf : DotDims.WF S50000x64 S55x64 S50000x55 [1] [1] [0] [0] [] []
  scatter_S500_S50000x1_S50000_n_0_0_1_wf : ScatterDims.WF S500 S50000x1 S50000 [] [0] [0] 1
  gather_S50000x55_S3000000x1_S3000000x55_1_0_n_n_0_1_155_wf : GatherDims.WF S50000x55 S3000000x1 S3000000x55 [1] [0] [] [0] [] 1 ![1, 55]
  scatter_S150000_S3000000x1_S3000000_n_0_0_1_wf : ScatterDims.WF S150000 S3000000x1 S3000000 [] [0] [0] 1

variable [Facts₀]

def dot_S50000x55_S55x64_S50000x64_1_0_0_1_n_n : DotDims S50000x55 S55x64 S50000x64 where
  lhsContracting := [1]
  rhsContracting := [0]
  lhsNonContracting := [0]
  rhsNonContracting := [1]
  lhsBatch := []
  rhsBatch := []
  wf := dot_S50000x55_S55x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def dot_S50000x1_S64x1_S50000x64_1_1_0_0_n_n : DotDims S50000x1 S64x1 S50000x64 where
  lhsContracting := [1]
  rhsContracting := [1]
  lhsNonContracting := [0]
  rhsNonContracting := [0]
  lhsBatch := []
  rhsBatch := []
  wf := dot_S50000x1_S64x1_S50000x64_1_1_0_0_n_n_wf
def dot_S50000x64_S64x64_S50000x64_1_1_0_0_n_n : DotDims S50000x64 S64x64 S50000x64 where
  lhsContracting := [1]
  rhsContracting := [1]
  lhsNonContracting := [0]
  rhsNonContracting := [0]
  lhsBatch := []
  rhsBatch := []
  wf := dot_S50000x64_S64x64_S50000x64_1_1_0_0_n_n_wf
def dot_S50000x64_S55x64_S50000x55_1_1_0_0_n_n : DotDims S50000x64 S55x64 S50000x55 where
  lhsContracting := [1]
  rhsContracting := [1]
  lhsNonContracting := [0]
  rhsNonContracting := [0]
  lhsBatch := []
  rhsBatch := []
  wf := dot_S50000x64_S55x64_S50000x55_1_1_0_0_n_n_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def gather_S50000x55_S3000000x1_S3000000x55_1_0_n_n_0_1_155 : GatherDims S50000x55 S3000000x1 S3000000x55 where
  offsetDims := [1]
  collapsedSliceDims := [0]
  operandBatchingDims := []
  startIndicesBatchingDims := []
  startIndexMap := [0]
  indexVectorDim := 1
  sliceSizes := ![1, 55]
  wf := gather_S50000x55_S3000000x1_S3000000x55_1_0_n_n_0_1_155_wf
def scatter_S150000_S3000000x1_S3000000_n_0_0_1 : ScatterDims S150000 S3000000x1 S3000000 where
  updateWindowDims := []
  insertedWindowDims := [0]
  scatterDimsToOperandDims := [0]
  indexVectorDim := 1
  wf := scatter_S150000_S3000000x1_S3000000_n_0_0_1_wf

class Facts : Prop extends Facts₀ where

variable [Facts]
-- ==== Proof.LibRows.lean ====
/-
  Arrays of n rows and c columns read row by row.

  A reduction along the second axis, read at row p, ranges over the columns k of that row: the source index over the
  reduced index (p) with the coordinate k inserted is (p, k). So a kernel's multi_reduction and the host's reduce
  over axis 1 are, at row p, the sum (the largest, the smallest) of the row's entries x (p, k), k : Fin c.
  A unit-stride slice that drops the first or the last column reads the row shifted or unshifted, and a concatenation
  of fifteen columns of shape [n, 1] along axis 1 reads, at (p, j), column j at (p, 0).
-/
import Idealize.ShloMosaic.Lib.ValueIdx
import Idealize.ShloMosaic.Lib.Pipeline.Value
import Idealize.ShloMosaic.PureOps.Ideal.Laws

noncomputable section

open scoped BigOperators

namespace Idealize.ShloMosaic.Rows

open Idealize.ShloMosaic Idealize.ShloMosaic.ValueIdx

variable {n c : ℕ} {φ : FTy}

/-- Over row p, the source index with column k inserted is (p, k). -/
theorem lift_row (h : (⟨2, ![n, c]⟩ : Shape).Reduces [1] ⟨1, ![n]⟩) (p : Fin n) (k : Fin c) :
    h.lift (ix1 p) k = ix2 p k := by
  funext a
  apply Fin.ext
  show h.liftVal (ix1 p) k.val a = _
  match a with
  | ⟨0, _⟩ => simp [Shape.Reduces.liftVal]
  | ⟨1, _⟩ => simp [Shape.Reduces.liftVal]

/-- A kernel's sum along the columns, at row p. -/
theorem mredAdd_row (src : FVec Ideal ⟨2, ![n, c]⟩ φ) (acc : BitVec φ.bits)
    (h : (⟨2, ![n, c]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin c, src (ix2 p k) := by
  rw [Ideal.multiReduction_add_single]
  exact Finset.sum_congr rfl fun k _ => congrArg src (lift_row h p k)

/-- A kernel's maximum along the columns, at row p. -/
theorem mredMax_row (src : FVec Ideal ⟨2, ![n, c]⟩ φ) (acc : BitVec φ.bits)
    (h : (⟨2, ![n, c]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin c)).fold max (Ideal.ofBits φ acc) (fun k => src (ix2 p k)) := by
  rw [Ideal.multiReduction_maximumf_single]
  have e : (src ∘ h.lift (ix1 p)) = fun k : Fin c => src (ix2 p k) := funext fun k => congrArg src (lift_row h p k)
  rw [e]
  rfl

/-- A kernel's minimum along the columns, at row p. -/
theorem mredMin_row (src : FVec Ideal ⟨2, ![n, c]⟩ φ) (acc : BitVec φ.bits)
    (h : (⟨2, ![n, c]⟩ : Shape).Reduces [1] ⟨1, ![n]⟩) (hφ : FKind.Formats φ) (hacc : acc = FKind.minimumf.neutral φ hφ)
    (p : Fin n) :
    multiReduction .minimumf [1] ⟨1, ![n]⟩ src acc h hφ hacc (ix1 p)
      = (Finset.univ : Finset (Fin c)).fold min (Ideal.ofBits φ acc) (fun k => src (ix2 p k)) := by
  rw [multiReduction_minimumf_eq_fold, h.fold_filter_drop_single]
  have e : (src ∘ h.lift (ix1 p)) = fun k : Fin c => src (ix2 p k) := funext fun k => congrArg src (lift_row h p k)
  rw [e]
  rfl

/-- The host's sum along the columns, at row p: the initial value plus the row's sum. -/
theorem hredAdd_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduceAdd x v h' hu (ix1 p) = v (Shape.Idx.first hu) + ∑ k : Fin c, x (ix2 p k) := by
  show Ideal.hostReduceAdd h' x (v (Shape.Idx.first hu)) (ix1 p) = _
  rw [Ideal.hostReduceAdd_single h' h]
  exact congrArg (v (Shape.Idx.first hu) + ·) (Finset.sum_congr rfl fun k _ => congrArg x (lift_row h p k))

/-- The host's maximum along the columns, at row p. -/
theorem hredMax_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduce FloatOps.maximumf x v h' hu (ix1 p)
      = (Finset.univ : Finset (Fin c)).fold max (v (Shape.Idx.first hu)) (fun k => x (ix2 p k)) := by
  rw [Host.reduce_eq_fold_single FloatOps.maximumf x v h' h hu]
  have e : (x ∘ h.lift (ix1 p)) = fun k : Fin c => x (ix2 p k) := funext fun k => congrArg x (lift_row h p k)
  rw [e]
  rfl

/-- The host's minimum along the columns, at row p. -/
theorem hredMin_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduce FloatOps.minimumf x v h' hu (ix1 p)
      = (Finset.univ : Finset (Fin c)).fold min (v (Shape.Idx.first hu)) (fun k => x (ix2 p k)) := by
  rw [Host.reduce_eq_fold_single FloatOps.minimumf x v h' h hu]
  have e : (x ∘ h.lift (ix1 p)) = fun k : Fin c => x (ix2 p k) := funext fun k => congrArg x (lift_row h p k)
  rw [e]
  rfl

variable {α : Type}

/-- The slice that drops the first column reads the row one to the right. -/
theorem slice_succ (x : (⟨2, ![n, c + 1]⟩ : Shape).Idx → α)
    (h : (⟨2, ![n, c + 1]⟩ : Shape).Slices ![0, 1] ⟨2, ![n, c]⟩) (p : Fin n) (k : Fin c) :
    extractStridedSlice ⟨2, ![n, c]⟩ ![0, 1] x h (ix2 p k) = x (ix2 p k.succ) :=
  extractStridedSlice_apply _ x h _ _ fun a => by
    match a with
    | ⟨0, _⟩ => show p.val = 0 + p.val; omega
    | ⟨1, _⟩ => show k.val + 1 = 1 + k.val; omega

/-- The slice that drops the last column reads the row in place. -/
theorem slice_castSucc (x : (⟨2, ![n, c + 1]⟩ : Shape).Idx → α)
    (h : (⟨2, ![n, c + 1]⟩ : Shape).Slices ![0, 0] ⟨2, ![n, c]⟩) (p : Fin n) (k : Fin c) :
    extractStridedSlice ⟨2, ![n, c]⟩ ![0, 0] x h (ix2 p k) = x (ix2 p k.castSucc) :=
  extractStridedSlice_apply _ x h _ _ fun a => by
    match a with
    | ⟨0, _⟩ => show p.val = 0 + p.val; omega
    | ⟨1, _⟩ => show k.val = 0 + k.val; omega

/-- Fifteen columns [n, 1] laid side by side: entry (p, j) is column j at (p, 0). -/
theorem concat15_apply (f : Fin 15 → ((⟨2, ![n, 1]⟩ : Shape).Idx → α))
    (h : Shape.Concatenates ((List.ofFn fun i : Fin 15 => (⟨⟨2, ![n, 1]⟩, f i⟩ : (s : Shape) × (s.Idx → α))).map (·.1))
      ⟨2, ![n, 15]⟩ 1)
    (p : Fin n) (j : Fin 15) :
    concatenate ⟨2, ![n, 15]⟩ 1 (List.ofFn fun i : Fin 15 => (⟨⟨2, ![n, 1]⟩, f i⟩ : (s : Shape) × (s.Idx → α))) h (ix2 p j)
      = f j (ix2 p (0 : Fin 1)) :=
  concatenate_ofFn_unit_apply (t := ⟨2, ![n, 15]⟩) (s₁ := ⟨2, ![n, 1]⟩) 1 f h rfl rfl (ix2 p j) j rfl (ix2 p (0 : Fin 1))
    (fun b hb => by
      match b with
      | ⟨0, _⟩ => rfl
      | ⟨1, _⟩ => exact absurd rfl hb)

end Idealize.ShloMosaic.Rows

end
-- ==== Proof.LibColumn.lean ====
/-
  A vector of length `a` laid out as a column `[a, 1]`, read at an index.

  Two host operations produce the same column from a vector `x`: a reshape `[a] → [a, 1]` (row-major position
  `i * 1 + 0 = i`) and a `broadcast_in_dim` along axis `0` into `[a, 1]` (the new axis has extent one, so nothing is
  repeated). Both read `x i` at `(i, u)`, whatever the unit coordinate `u`; hence the two columns are equal as arrays.
  A column broadcast along its unit axis to `[a, b]` (the kernel-side `vector.broadcast`, the host's
  `broadcast_in_dim` along both axes) reads the column at `(i, 0)`.
-/
import Idealize.ShloMosaic.Lib.ValueIdx
import Idealize.ShloMosaic.Lib.Pipeline.Value

namespace Idealize.ShloMosaic.Column

open Idealize.ShloMosaic Idealize.ShloMosaic.ValueIdx

variable {α : Type}

/-- The reshape `[a] → [a, 1]` at `(i, u)` is the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The `broadcast_in_dim` of a vector along axis `0` into `[a, 1]`, at `(i, u)`, is the vector at `i`
    (for `a ≠ 1`; the extent-one case reads index `0`, which is again `i`). -/
theorem broadcastInDim_a_a1_apply {a : ℕ} (x : (⟨1, ![a]⟩ : Shape).Idx → α)
    (dims : Fin 1 → Fin 2) (hd : dims 0 = 0)
    (h : (⟨1, ![a]⟩ : Shape).BroadcastsInDim ⟨2, ![a, 1]⟩ dims)
    (i : Fin a) (u : Fin 1) : broadcastInDim ⟨2, ![a, 1]⟩ dims h x (ix2 i u) = x (ix1 i) := by
  refine broadcastInDim_apply dims h x (ix2 i u) (ix1 i) ?_
  intro d
  match d with
  | ⟨0, _⟩ =>
    show i.val = if a = 1 then 0 else ((ix2 i u : (⟨2, ![a, 1]⟩ : Shape).Idx) (dims 0)).val
    rw [hd]
    by_cases h1 : a = 1
    · rw [if_pos h1]; have := i.isLt; omega
    · rw [if_neg h1]

/-- So the two columns are one array. -/
theorem shapeCast_eq_broadcastInDim {a : ℕ} (x : (⟨1, ![a]⟩ : Shape).Idx → α)
    (hs : (⟨1, ![a]⟩ : Shape).ShapeCasts ⟨2, ![a, 1]⟩)
    (dims : Fin 1 → Fin 2) (hd : dims 0 = 0)
    (hb : (⟨1, ![a]⟩ : Shape).BroadcastsInDim ⟨2, ![a, 1]⟩ dims) :
    shapeCast ⟨2, ![a, 1]⟩ x hs = broadcastInDim ⟨2, ![a, 1]⟩ dims hb x := by
  funext j
  obtain ⟨p, q, rfl⟩ : ∃ (p : Fin a) (q : Fin 1), j = ix2 p q := ⟨j 0, j 1, eq_ix2 j⟩
  rw [shapeCast_a_a1_apply, broadcastInDim_a_a1_apply x dims hd]

/-- A column `[a, 1]` broadcast to `[a, b]` (a kernel's `vector.broadcast`) reads, at `(i, j)`, the column at `(i, 0)`
    (for `a ≠ 1`). -/
theorem broadcastTo_a1_ab_apply {a b : ℕ} (ha : a ≠ 1) (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) ?_
  intro d
  match d with
  | ⟨0, _⟩ => show i.val = if a = 1 then 0 else i.val; rw [if_neg ha]
  | ⟨1, _⟩ => show 0 = if (1 : ℕ) = 1 then 0 else j.val; rw [if_pos rfl]

/-- The host's `broadcast_in_dim` of a column `[a, 1]` along both axes into `[a, b]` reads the same (for `a ≠ 1`). -/
theorem broadcastInDim_a1_ab_apply {a b : ℕ} (ha : a ≠ 1) (x : (⟨2, ![a, 1]⟩ : Shape).Idx → α)
    (dims : Fin 2 → Fin 2) (hd0 : dims 0 = 0) (hd1 : dims 1 = 1)
    (h : (⟨2, ![a, 1]⟩ : Shape).BroadcastsInDim ⟨2, ![a, b]⟩ dims) (i : Fin a) (j : Fin b) :
    broadcastInDim ⟨2, ![a, b]⟩ dims h x (ix2 i j) = x (ix2 i (0 : Fin 1)) := by
  refine broadcastInDim_apply dims h x (ix2 i j) (ix2 i (0 : Fin 1)) ?_
  intro d
  match d with
  | ⟨0, _⟩ =>
    show i.val = if a = 1 then 0 else ((ix2 i j : (⟨2, ![a, b]⟩ : Shape).Idx) (dims 0)).val
    rw [hd0, if_neg ha]
  | ⟨1, _⟩ =>
    show 0 = if (1 : ℕ) = 1 then 0 else ((ix2 i j : (⟨2, ![a, b]⟩ : Shape).Idx) (dims 1)).val
    rw [if_pos rfl]

end Idealize.ShloMosaic.Column
-- ==== Proof.LibRowDot.lean ====
/-
  Row-by-row dot products.

  For two arrays x and g of n rows and c columns, the column rowDot x g holds at (p, 0) the sum over the columns k
  of x (p, k) * g (p, k): the dot product of row p of x with row p of g. Row p of the column depends on row p of the
  two arrays and on nothing else, so the rowDot of two tiles cut from the same rows of two larger arrays is that
  stretch of the larger arrays' rowDot (rowDot_congr).

  Two programs compute these numbers. A kernel body that multiplies two tiles entry by entry, sums every row with
  a lane reduction started at zero and lays the sums out as a column leaves the tiles' rowDot (tile_eq). The host's
  entrywise product followed by a sum over axis 1 started at the value 0 leaves the same numbers as a vector, which
  is the column read as a vector (host_rows): both are the one sum over k, the host's with 0 added in front.
-/
import Idealize.ShloMosaic.Lib.ValueIdx
import Idealize.ShloMosaic.Lib.Pipeline.Value
import Idealize.ShloMosaic.PureOps.Ideal.Laws
import proofs.«140947_j17746804867402_1_alg».proof.Proof.LibRows
import proofs.«140947_j17746804867402_1_alg».proof.Proof.LibColumn

noncomputable section

open scoped BigOperators

namespace Cert.RowDot

open Idealize.ShloMosaic Idealize.ShloMosaic.ValueIdx

variable {n c : ℕ}

/-- The column of row-by-row dot products: at (p, 0), the sum over k of x (p, k) * g (p, k). -/
def rowDot (x g : FVec Ideal ⟨2, ![n, c]⟩ .f32) : FVec Ideal ⟨2, ![n, 1]⟩ .f32 :=
  fun i => ∑ k : Fin c, x (ix2 (i 0) k) * g (ix2 (i 0) k)

theorem rowDot_apply (x g : FVec Ideal ⟨2, ![n, c]⟩ .f32) (p : Fin n) (u : Fin 1) :
    rowDot x g (ix2 p u) = ∑ k : Fin c, x (ix2 p k) * g (ix2 p k) := rfl

/-- Row j of a tile's rowDot is row J of two arrays' rowDot once the tile's row j is the arrays' row J. -/
theorem rowDot_congr {N : ℕ} (x0 x1 : FVec Ideal ⟨2, ![n, c]⟩ .f32) (X G : FVec Ideal ⟨2, ![N, c]⟩ .f32)
    (j : (⟨2, ![n, 1]⟩ : Shape).Idx) (J : (⟨2, ![N, 1]⟩ : Shape).Idx)
    (h0 : ∀ k : Fin c, x0 (ix2 (j 0) k) = X (ix2 (J 0) k))
    (h1 : ∀ k : Fin c, x1 (ix2 (j 0) k) = G (ix2 (J 0) k)) :
    rowDot x0 x1 j = rowDot X G J :=
  Finset.sum_congr rfl fun k _ => by rw [h0 k, h1 k]

/-- A column [a, 1] read as a vector [a] has, at i, the column's entry (i, 0): both sit at row-major position i. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- THE KERNEL'S TILE: the entrywise product of two tiles (the second passed through a shape cast to its own
    shape), every row summed by a lane reduction from the neutral accumulator, the sums laid out as a column. -/
theorem tile_eq (x0 x1 : FVec Ideal ⟨2, ![n, c]⟩ .f32)
    (hs : (⟨2, ![n, c]⟩ : Shape).ShapeCasts ⟨2, ![n, c]⟩)
    (acc : BitVec (FTy.f32).bits) (hr : (⟨2, ![n, c]⟩ : Shape).Reduces [1] ⟨1, ![n]⟩) (hφ : FKind.Formats FTy.f32)
    (hacc : acc = FKind.add.neutral FTy.f32 hφ)
    (hc : (⟨1, ![n]⟩ : Shape).ShapeCasts ⟨2, ![n, 1]⟩) :
    shapeCast ⟨2, ![n, 1]⟩ (multiReduction .add [1] ⟨1, ![n]⟩ (mulf x0 (shapeCast ⟨2, ![n, c]⟩ x1 hs)) acc hr hφ hacc) hc
      = rowDot x0 x1 := by
  funext j
  obtain ⟨p, u, rfl⟩ : ∃ (p : Fin n) (u : Fin 1), j = ix2 p u := ⟨j 0, j 1, eq_ix2 j⟩
  rw [Idealize.ShloMosaic.Column.shapeCast_a_a1_apply, Idealize.ShloMosaic.Rows.mredAdd_row, shapeCast_self]
  rfl

/-- THE HOST'S ROWS: the entrywise product summed over axis 1 from an initial value that is 0 is the column of
    row-by-row dot products read as a vector. -/
theorem host_rows (x g : FVec Ideal ⟨2, ![n, c]⟩ .f32) {u : Shape} (v : u.Idx → Ideal FTy.f32) (hu : 0 < u.numel)
    (hv : v (Shape.Idx.first hu) = 0)
    (h' : (⟨2, ![n, c]⟩ : Shape).ReducesTo [1] ⟨1, ![n]⟩) (h : (⟨2, ![n, c]⟩ : Shape).Reduces [1] ⟨1, ![n]⟩)
    (hc : (⟨2, ![n, 1]⟩ : Shape).ShapeCasts ⟨1, ![n]⟩) :
    Host.reduceAdd (mulf x g) v h' hu = shapeCast ⟨1, ![n]⟩ (rowDot x g) hc := by
  funext i
  obtain ⟨p, rfl⟩ : ∃ p : Fin n, i = ix1 p := ⟨i 0, eq_ix1 i⟩
  rw [Idealize.ShloMosaic.Rows.hredAdd_row (mulf x g) v h' h hu p, hv, zero_add, shapeCast_a1_a_apply]
  rfl

end Cert.RowDot

end
-- ==== Proof.ContribArray.lean ====
/-
  What the region leaves in its output array.

  The region walks 375 grid points. At point t it stages rows 8000 t … 8000 t + 7999 of the two input arrays (all 55
  columns) and writes rows 8000 t … 8000 t + 7999 of the one-column output. The body's store is the rowDot of the two
  staged tiles, and row y of a tile is row 8000 t + y of its array, so what point t writes back is that stretch of
  the rowDot of the two whole arrays as the region finds them. Row r of the output lies in the block of the point
  r / 8000, so the blocks cover the output, and the array ends holding the rowDot of the two input arrays.
-/
import proofs.«140947_j17746804867402_1_alg».proof.Proof.Gen.KernelIdeal.Frame
import proofs.«140947_j17746804867402_1_alg».proof.Proof.LibRowDot
import Idealize.ShloMosaic.Lib.Pipeline.Value

set_option maxRecDepth 16384

noncomputable section

namespace Cert.KernelIdeal.Contrib

open Cert.KernelIdeal Cert.KernelIdeal.Gen Cert.RowDot
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem off_zero : (![0, 0] : Fin 2 → Nat) = fun _ => 0 := funext fun a => by fin_cases a <;> rfl

/-- The body's one store is the rowDot of the two tiles it loaded. -/
theorem pay_eq (x0 x1 : Vec Ideal S8000x55 .f32) : k0_pay1 (F := Ideal) x0 x1 = rowDot x0 x1 := by
  unfold k0_pay1
  exact tile_eq x0 x1 _ _ _ _ _ _

/-- The three index maps over the grid: at point t every window sits at block row t, block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK: rows 8000 t … 8000 t + 7999 of the rowDot of the two input arrays. -/
theorem flushed_eq (c : Dev nD) (t : Fin cfg0.N) :
    (dats m 0 c).flushed 2 t
      = ((cfg0.win 2).blk t).view.read (Elt Ideal) (rowDot (V m c main_arg1) (V m c main_v40)) := by
  show (cfg0.win 2).cut (grid0.coords t) ((dats m 0 c).after 2 t) = _
  rw [after0_2]
  unfold out0_2
  rw [View.canon_unit_zero off_zero]
  simp only [View.ld_unit_zero (S := S8000x55) off_zero]
  rw [pay_eq]
  obtain ⟨e00, e01, e10, e11, e20, e21⟩ := idx_facts t
  funext j
  show rowDot (iblk m c 0 t) (iblk m c 1 t) j
    = rowDot (V m c main_arg1) (V m c main_v40) (((cfg0.win 2).blk t).view.emb j)
  refine rowDot_congr _ _ _ _ j _ (fun k => ?_) (fun k => ?_)
  · show V m c main_arg1 (((cfg0.win 0).blk t).view.emb (ix2 (j 0) k))
      = V m c main_arg1 (ix2 ((((cfg0.win 2).blk t).view.emb j) 0) k)
    refine congrArg (V m c main_arg1) (funext fun a => Fin.ext ?_)
    match a with
    | ⟨0, _⟩ =>
      show win0_0.index t (0 : Fin 2) * 8000 + 1 * (j 0).val = win0_2.index t (0 : Fin 2) * 8000 + 1 * (j 0).val
      rw [e00, e20]
    | ⟨1, _⟩ =>
      show win0_0.index t (1 : Fin 2) * 55 + 1 * k.val = k.val
      rw [e01]; omega
  · show V m c main_v40 (((cfg0.win 1).blk t).view.emb (ix2 (j 0) k))
      = V m c main_v40 (ix2 ((((cfg0.win 2).blk t).view.emb j) 0) k)
    refine congrArg (V m c main_v40) (funext fun a => Fin.ext ?_)
    match a with
    | ⟨0, _⟩ =>
      show win0_1.index t (0 : Fin 2) * 8000 + 1 * (j 0).val = win0_2.index t (0 : Fin 2) * 8000 + 1 * (j 0).val
      rw [e10, e20]
    | ⟨1, _⟩ =>
      show win0_1.index t (1 : Fin 2) * 55 + 1 * k.val = k.val
      rw [e11]; omega

/-- An index of the output is in point t's block iff each coordinate is in the block's range on its axis. -/
theorem mem_blk (t : Fin cfg0.N) (i : S3000000x1.Idx) :
    i ∈ ((cfg0.win 2).blk t).view.set
      ↔ ∀ a : Fin 2, win0_2.index t a * S8000x1.size a ≤ (i a).val
          ∧ (i a).val < win0_2.index t a * S8000x1.size a + S8000x1.size a := by
  show i ∈ ((View.whole main_v41).slice (win0_2.rect t)).set ↔ _
  rw [View.set_slice_whole, Rect.mem_set_unit]
  exact Iff.rfl

/-- Row r of the output is written back by the point r / 8000. -/
theorem covered (i : S3000000x1.Idx) :
    ∃ t : Fin cfg0.N, (cfg0.win 2).flush t = true ∧ i ∈ ((cfg0.win 2).blk t).view.set := by
  have hi0 : (i 0).val < 3000000 := (i 0).isLt
  have hi1 : (i 1).val < 1 := (i 1).isLt
  have hN : cfg0.N = 375 := N_0
  have ht : (i 0).val / 8000 < cfg0.N := by rw [hN]; omega
  obtain ⟨-, -, -, -, e20, e21⟩ := idx_facts ⟨(i 0).val / 8000, ht⟩
  refine ⟨⟨(i 0).val / 8000, ht⟩, flush0_2 _, ?_⟩
  rw [mem_blk]
  intro a
  match a with
  | ⟨0, _⟩ =>
    show win0_2.index ⟨(i 0).val / 8000, ht⟩ (0 : Fin 2) * 8000 ≤ (i 0).val
      ∧ (i 0).val < win0_2.index ⟨(i 0).val / 8000, ht⟩ (0 : Fin 2) * 8000 + 8000
    rw [e20]
    show (i 0).val / 8000 * 8000 ≤ (i 0).val ∧ (i 0).val < (i 0).val / 8000 * 8000 + 8000
    omega
  | ⟨1, _⟩ =>
    show win0_2.index ⟨(i 0).val / 8000, ht⟩ (1 : Fin 2) * 1 ≤ (i 1).val
      ∧ (i 1).val < win0_2.index ⟨(i 0).val / 8000, ht⟩ (1 : Fin 2) * 1 + 1
    rw [e21]
    omega

/-- THE OUTPUT ARRAY after the region: the rowDot of the two input arrays as the region finds them. -/
theorem final (c : Dev nD) :
    (dats m 0 c).arrAt 2 cfg0.N = rowDot (V m c main_arg1) (V m c main_v40) :=
  (dats m 0 c).arrAt_eq_of_cover 2 _ (fun t _ => flushed_eq m c t) covered

end Cert.KernelIdeal.Contrib

end
-- ==== Proof.KernelResults.lean ====
/-
  The kernel program's two results as functions of its argument arrays.

  The program is a stretch of host operations (the network's forward and backward pass, the per-structure energy
  sums, the wrap of negative atom numbers and the gather of the gradient rows), the region, and a second stretch
  (the column read as a vector, the force slots 3 j + dim, the scatter-add into them).

  The energies are written before the region and touched by nothing after it: they end at what the first stretch
  computes. The forces are the second stretch applied to the region's output array, which is the rowDot of xd with
  the gathered gradient rows. Both are stated through the reference's stage functions (one pure function per
  operation of the reference), applied to this program's arguments: the first stretch is the reference's own
  operations, the second stretch is the reference's last operations, and between them the column of row-by-row
  dot products read as a vector is the host's product summed over axis 1 from 0 (host_rows).
-/
import proofs.«140947_j17746804867402_1_alg».proof.Proof.Gen.KernelIdeal.Frame
import proofs.«140947_j17746804867402_1_alg».proof.Proof.Gen.ReferenceIdeal.Read
import proofs.«140947_j17746804867402_1_alg».proof.Proof.LibRowDot
import proofs.«140947_j17746804867402_1_alg».proof.Proof.ContribArray
import Idealize.ShloMosaic.Lib.StableHlo.Run
import Idealize.ShloMosaic.PureOps.Ideal.Laws

set_option maxRecDepth 16384

noncomputable section

namespace Cert.KernelIdeal.Results

open Cert.KernelIdeal Cert.KernelIdeal.Gen Cert.RowDot
open Idealize.ShloMosaic Idealize.ShloMosaic.TcCoe Idealize.ShloMosaic.StableHlo
open Idealize.SL Idealize.SL.Sem
open Cert.ReferenceIdeal.Read (val_main_v31 val_main_v40 val_main_v41 val_main_v42 val_main_v48 val_main_v49 val_main_v50
  val_main_cst_4)

variable (m : (ℓ : Loc nD τ sig) → Buf (Elt Ideal) ℓ)

/-! ## The second stretch, over any contents -/

/-- The force sums from the pair-index columns x5, the neighbour numbers x6 and a column of per-row contributions:
    the contributions read as a vector, scatter-added from zero into the slots 3 * x6 + x5[:, 2]. -/
def forces (x5 : (⟨S3000000x3, .i32⟩ : BufTy).Contents (Elt Ideal)) (x6 : (⟨S3000000, .i32⟩ : BufTy).Contents (Elt Ideal)) (col : (⟨S3000000x1, .f32⟩ : BufTy).Contents (Elt Ideal)) :
    (⟨S150000, .f32⟩ : BufTy).Contents (Elt Ideal) :=
  Host.scatterAdd (F := Ideal) (φ := FTy.f32) Cert.ReferenceIdeal.scatter_S150000_S3000000x1_S3000000_n_0_0_1
    (val_main_v48 (F := Ideal)) (val_main_v49 (F := Ideal) x5 x6)
    (shapeCast Cert.ReferenceIdeal.S3000000 col Cert.ReferenceIdeal.Facts₀.shapeCasts_S3000000x1_S3000000)

/-- The second stretch leaves, in the forces' buffer, forces of the three buffers it reads. -/
theorem tail_forces (W : Valuation τ sig (Elt Ideal)) :
    (StableHlo.after (hostOps1 (F := Ideal)) W (Proc.devRef .tc main_v50) : (⟨S150000, .f32⟩ : BufTy).Contents (Elt Ideal))
      = forces (W (Proc.devRef .tc main_arg5) : (⟨S3000000x3, .i32⟩ : BufTy).Contents (Elt Ideal))
          (W (Proc.devRef .tc main_arg6) : (⟨S3000000, .i32⟩ : BufTy).Contents (Elt Ideal))
          (W (Proc.devRef .tc main_v41) : (⟨S3000000x1, .f32⟩ : BufTy).Contents (Elt Ideal)) := by
  after_results
  rfl

/-- The second stretch does not write the energies' buffer. -/
theorem tail_energies (W : Valuation τ sig (Elt Ideal)) :
    StableHlo.after (hostOps1 (F := Ideal)) W (Proc.devRef .tc main_v31) = W (Proc.devRef .tc main_v31) := by
  after_results

/-! ## The first stretch -/

set_option maxHeartbeats 2000000 in
/-- The gathered gradient rows, as the region finds them. -/
theorem V_gathered (c : Dev nD) :
    (V m c main_v40 : (⟨S3000000x55, .f32⟩ : BufTy).Contents (Elt Ideal)) = val_main_v40 (F := Ideal) (m ((c.tc : Thread nD τ).loc main_arg0)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show StableHlo.after (hostOps0 (F := Ideal)) (fun b => m (c, b)) (Proc.devRef .tc main_v40) = _
  after_results_simp <;> rfl

set_option maxHeartbeats 2000000 in
/-- The energies, as the region finds them. -/
theorem V_energies (c : Dev nD) :
    (V m c main_v31 : (⟨S500, .f32⟩ : BufTy).Contents (Elt Ideal)) = val_main_v31 (F := Ideal) (m ((c.tc : Thread nD τ).loc main_arg0)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  show StableHlo.after (hostOps0 (F := Ideal)) (fun b => m (c, b)) (Proc.devRef .tc main_v31) = _
  after_results_simp <;> rfl

/-! ## The bridge: the column read as a vector is the host's sum of products -/

/-- The initial value of the reference's sum is 0. -/
theorem cst_zero : (val_main_cst_4 (F := Ideal)) (Shape.Idx.first Cert.ReferenceIdeal.Facts₀.h_S_) = 0 := by
  show Ideal.ofBits .f32 0x00000000#32 = 0
  exact Ideal.ofBits_zero_f32

/-- forces of the rowDot of xd with the gathered rows is the reference's last stage. -/
theorem forces_rowDot (x0 : (⟨S50000x55, .f32⟩ : BufTy).Contents (Elt Ideal)) (x1 : (⟨S3000000x55, .f32⟩ : BufTy).Contents (Elt Ideal)) (x5 : (⟨S3000000x3, .i32⟩ : BufTy).Contents (Elt Ideal))
    (x6 : (⟨S3000000, .i32⟩ : BufTy).Contents (Elt Ideal)) (x7 : (⟨S55x64, .f32⟩ : BufTy).Contents (Elt Ideal)) (x8 : (⟨S64, .f32⟩ : BufTy).Contents (Elt Ideal)) (x9 : (⟨S64x64, .f32⟩ : BufTy).Contents (Elt Ideal))
    (x10 : (⟨S64, .f32⟩ : BufTy).Contents (Elt Ideal)) (x11 : (⟨S64x1, .f32⟩ : BufTy).Contents (Elt Ideal)) :
    forces x5 x6 (rowDot x1 (val_main_v40 (F := Ideal) x0 x5 x7 x8 x9 x10 x11))
      = val_main_v50 (F := Ideal) x0 x1 x5 x6 x7 x8 x9 x10 x11 := by
  unfold forces val_main_v50 val_main_v42 val_main_v41
  exact congrArg (Host.scatterAdd (F := Ideal) (φ := FTy.f32) Cert.ReferenceIdeal.scatter_S150000_S3000000x1_S3000000_n_0_0_1
      (val_main_v48 (F := Ideal)) (val_main_v49 (F := Ideal) x5 x6))
    (host_rows x1 (val_main_v40 (F := Ideal) x0 x5 x7 x8 x9 x10 x11) (val_main_cst_4 (F := Ideal))
      Cert.ReferenceIdeal.Facts₀.h_S_ cst_zero Cert.ReferenceIdeal.Facts₀.reducesTo_S3000000x55_S3000000_d1 (by decide)
      Cert.ReferenceIdeal.Facts₀.shapeCasts_S3000000x1_S3000000).symm

/-! ## The two results after the whole program -/

/-- THE ENERGIES after the program. -/
theorem res_energies (c : Dev nD) :
    (Pipeline.afterTail₀ cfgs (dats m) 0 (V0 m) [hostOps1] c main_v31 : (⟨S500, .f32⟩ : BufTy).Contents (Elt Ideal))
      = val_main_v31 (F := Ideal) (m ((c.tc : Thread nD τ).loc main_arg0)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Pipeline.afterTail₀
  show StableHlo.after (hostOps1 (F := Ideal)) _ (Proc.devRef .tc main_v31) = _
  rw [tail_energies]
  exact (Pipeline.withArrays_of_ne _ c (V0 m c) _ main_v31
    (by exact (by decide : ∀ w, Pipeline.arrRef spec0 w ≠ main_v31))).trans (V_energies m c)

/-- THE FORCES after the program. -/
theorem res_forces (c : Dev nD) :
    (Pipeline.afterTail₀ cfgs (dats m) 0 (V0 m) [hostOps1] c main_v50 : (⟨S150000, .f32⟩ : BufTy).Contents (Elt Ideal))
      = val_main_v50 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Pipeline.afterTail₀
  show StableHlo.after (hostOps1 (F := Ideal)) _ (Proc.devRef .tc main_v50) = _
  rw [tail_forces]
  have h5 := (Pipeline.withArrays_of_ne (cfgs 0).spec c (V0 m c) (fun w => (dats m 0 c).arrAt w (cfgs 0).N) main_arg5
    (by exact (by decide : ∀ w, Pipeline.arrRef spec0 w ≠ main_arg5))).trans (V_main_arg5 m c)
  have h6 := (Pipeline.withArrays_of_ne (cfgs 0).spec c (V0 m c) (fun w => (dats m 0 c).arrAt w (cfgs 0).N) main_arg6
    (by exact (by decide : ∀ w, Pipeline.arrRef spec0 w ≠ main_arg6))).trans (V_main_arg6 m c)
  have h41 := (Pipeline.withArrays_arr spec0 launch0.win.arr_inj c (V0 m c) (fun w => (dats m 0 c).arrAt w (cfgs 0).N) 2).trans
    (Cert.KernelIdeal.Contrib.final m c)
  rw [h5, h6, h41, V_main_arg1 m c, V_gathered m c]
  exact forces_rowDot _ _ _ _ _ _ _ _ _

/-! ## The run -/

/-- Every weakly fair execution of the program ends with the energies and the forces at the reference's stage
    functions of the arguments, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v31) = val_main_v31 (F := Ideal) (m ((c.tc : Thread nD τ).loc main_arg0)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v50) = val_main_v50 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨
      ((h c).2 main_v31 (Pipeline.mem_restRefs_of main_v31 (by decide) (by decide))).trans (res_energies m c),
      ((h c).2 main_v50 (Pipeline.mem_restRefs_of main_v50 (by decide) (by decide))).trans (res_forces m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.KernelIdeal.Results

end
-- ==== Proof.lean ====
/-
  Equivalence over the extended reals of a neighbour-list force kernel and its array reference.

  Both programs run a three-layer tanh network over the descriptors of 50000 atoms, take the gradient of the summed
  output with respect to the descriptors, add the per-atom energies up per structure (the first result), gather one
  gradient row for each of the 3000000 derivative rows (a negative atom number wrapped by 50000 first), form for
  every derivative row r the number  sum over k < 55 of xd (r, k) * gathered (r, k),  and scatter-add those numbers
  into the 150000 force slots 3 * unique_j + dim (the second result).

  The two programs are the same operations on the same literals except for the middle step. The kernel program
  forms the row sums in a region that walks the rows 8000 at a time: each grid point multiplies its two tiles entry
  by entry, sums every row of the product from a zero accumulator and writes the sums back as an 8000 x 1 block; the
  blocks tile the 3000000 x 1 output, which is then read as a vector. The reference multiplies the two whole arrays
  entry by entry and sums over axis 1 from the initial value 0. At the extended reals the first is the sum over k
  and the second is 0 plus the same sum, so the two vectors are equal entry by entry, and the operations before and
  after that step being the same, so are the energies and the forces. Only  0 + s = s  is used: nothing is moved
  across a sum or a product, so the inputs' finiteness is not needed and the precondition is never opened.

  Proof/LibRowDot.lean states the column of row-by-row dot products and proves the two readings (a tile of the kernel,
  the host's product and sum); Proof/ContribArray.lean shows that the region's output array is that column of the two
  whole input arrays (what a point writes back, the cover of the rows by the points r / 8000); Proof/KernelResults.lean
  carries it through the operations after the region and states both results as the reference's own per-operation
  functions of the arguments. Proof/LibRows.lean and Proof/LibColumn.lean are general facts about a row reduction
  read at a row and about a vector laid out as a column. The three frames are the generated ones (the reference's is
  its run with the results dropped); the kernel program has no idealizing rewrite, so preserves is trivial.
-/
import proofs.«140947_j17746804867402_1_alg».proof.Defs
import proofs.«140947_j17746804867402_1_alg».proof.Proof.Gen.Kernel
import proofs.«140947_j17746804867402_1_alg».proof.Proof.Gen.Kernel.Skeleton
import proofs.«140947_j17746804867402_1_alg».proof.Proof.Gen.Kernel.Launch
import proofs.«140947_j17746804867402_1_alg».proof.Proof.Gen.Kernel.Points
import proofs.«140947_j17746804867402_1_alg».proof.Proof.Gen.Kernel.Frame
import proofs.«140947_j17746804867402_1_alg».proof.Proof.Gen.KernelIdeal
import proofs.«140947_j17746804867402_1_alg».proof.Proof.Gen.KernelIdeal.Skeleton
import proofs.«140947_j17746804867402_1_alg».proof.Proof.Gen.KernelIdeal.Launch
import proofs.«140947_j17746804867402_1_alg».proof.Proof.Gen.KernelIdeal.Points
import proofs.«140947_j17746804867402_1_alg».proof.Proof.Gen.KernelIdeal.Frame
import proofs.«140947_j17746804867402_1_alg».proof.Proof.Gen.ReferenceIdeal
import proofs.«140947_j17746804867402_1_alg».proof.Proof.Gen.ReferenceIdeal.Run
import proofs.«140947_j17746804867402_1_alg».proof.Proof.Gen.ReferenceIdeal.Read
import proofs.«140947_j17746804867402_1_alg».proof.Proof.Gen.Pre_finite_inputs
import proofs.«140947_j17746804867402_1_alg».proof.Proof.KernelResults
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the energies and the forces at the reference's last stages of the arguments: the kernel
    program by Proof/KernelResults.lean, the reference by its generated run read stage by stage, the two memories
    agreeing on the arguments. -/
theorem algebraic : Cert.algebraic_KernelIdeal_ReferenceIdeal := by
  intro m ρ m' ρ' _ hagree
  refine ⟨fun c => Cert.ReferenceIdeal.Read.val_main_v31 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.ReferenceIdeal.Read.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Results.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12⟩ := hagree c
    rw [Cert.ReferenceIdeal.Read.val_main_v31_eq, a0, a2, a7, a8, a9, a10, a11, a12]
  · obtain ⟨a0, a1, a2, a3, a4, a5, a6, a7, a8, a9, a10, a11, a12⟩ := hagree c
    rw [Cert.ReferenceIdeal.Read.val_main_v50_eq, a0, a1, a5, a6, a7, a8, a9, a10, a11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
